-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x16 : Shape := ⟨2, ![1000, 16]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_

variable [Facts]

def fn {F : FTy → Type} [FloatOps F] (main_arg0 : FVec F S16384x1000 .f32) (main_arg1 : FVec F S1000x16 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  main_v8
-- ==== Kernel.lean ====
abbrev S16384x1000 : Shape := ⟨2, ![16384, 1000]⟩
abbrev S1000x16 : Shape := ⟨2, ![1000, 16]⟩
abbrev S1000x16384 : Shape := ⟨2, ![1000, 16384]⟩
abbrev S_ : Shape := ⟨0, ![]⟩
abbrev S1000x24 : Shape := ⟨2, ![1000, 24]⟩
abbrev S1 : Shape := ⟨1, ![1]⟩
abbrev S1000 : Shape := ⟨1, ![1000]⟩
abbrev S16x16384 : Shape := ⟨2, ![16, 16384]⟩
abbrev S200x24 : Shape := ⟨2, ![200, 24]⟩
abbrev S200x2048 : Shape := ⟨2, ![200, 2048]⟩
abbrev S16x2048 : Shape := ⟨2, ![16, 2048]⟩
abbrev S24x2048 : Shape := ⟨2, ![24, 2048]⟩
abbrev S1x2048 : Shape := ⟨2, ![1, 2048]⟩
abbrev S16384x16 : Shape := ⟨2, ![16384, 16]⟩

abbrev nBuf : Space → Nat
  | .hbm => 15
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S1000x16, .f32⟩
  | .hbm, ⟨2, _⟩ => ⟨S1000x16384, .f32⟩
  | .hbm, ⟨3, _⟩ => ⟨S_, .f32⟩
  | .hbm, ⟨4, _⟩ => ⟨S1000x24, .f32⟩
  | .hbm, ⟨5, _⟩ => ⟨S_, .i32⟩
  | .hbm, ⟨6, _⟩ => ⟨S1, .i32⟩
  | .hbm, ⟨7, _⟩ => ⟨S1000x24, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S1000, .f32⟩
  | .hbm, ⟨12, _⟩ => ⟨S1000x24, .f32⟩
  | .hbm, ⟨13, _⟩ => ⟨S16x16384, .f32⟩
  | .hbm, ⟨14, _⟩ => ⟨S16384x16, .f32⟩
  | .local _ .vmem, ⟨0, _⟩ => ⟨S200x24, .f32⟩
  | .local _ .vmem, ⟨1, _⟩ => ⟨S200x24, .f32⟩
  | .local _ .vmem, ⟨2, _⟩ => ⟨S200x2048, .f32⟩
  | .local _ .vmem, ⟨3, _⟩ => ⟨S200x2048, .f32⟩
  | .local _ .vmem, ⟨4, _⟩ => ⟨S16x2048, .f32⟩
  | .local _ .vmem, ⟨5, _⟩ => ⟨S16x2048, .f32⟩
  | .local _ .vmem, ⟨6, _⟩ => ⟨S24x2048, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S200x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S200x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16384x1000_S1000x16384_1_0 : S16384x1000.Transposes [1, 0] S1000x16384
  bcast_S_S1000x24 : S_.BroadcastsInDim S1000x24 (![] : Fin 0 → Fin S1000x24.rank)
  bcast_S_S1 : S_.BroadcastsInDim S1 (![] : Fin 0 → Fin S1.rank)
  bcast_S_S1000 : S_.BroadcastsInDim S1000 (![] : Fin 0 → Fin S1000.rank)
  inb_S24x2048_S24x2048_0_0 : ∀ a, (![0, 0] : Fin 2 → Nat) a + S24x2048.size a ≤ S24x2048.size a
  h_S24x2048 : 0 < S24x2048.numel
  shapeCasts_S24x2048_S24x2048 : S24x2048.ShapeCasts S24x2048
  inb_S200x2048_S200x2048_0_0 : ∀ a, (![0, 0] : Fin 2 → Nat) a + S200x2048.size a ≤ S200x2048.size a
  h_S200x2048 : 0 < S200x2048.numel
  shapeCasts_S200x2048_S200x2048 : S200x2048.ShapeCasts S200x2048
  bitsLt_bf16_f32 : FTy.bits .bf16 < FTy.bits .f32
  inb_S200x24_S200x24_0_0 : ∀ a, (![0, 0] : Fin 2 → Nat) a + S200x24.size a ≤ S200x24.size a
  h_S200x24 : 0 < S200x24.numel
  shapeCasts_S200x24_S200x24 : S200x24.ShapeCasts S200x24
  slices_S24x2048_o0_0_S16x2048 : S24x2048.Slices ![0, 0] S16x2048
  slices_S24x2048_o16_0_S1x2048 : S24x2048.Slices ![16, 0] S1x2048
  broadcasts_S1x2048_S16x2048 : S1x2048.Broadcasts S16x2048
  inb_S16x2048_S16x2048_0_0 : ∀ a, (![0, 0] : Fin 2 → Nat) a + S16x2048.size a ≤ S16x2048.size a
  h_S16x2048 : 0 < S16x2048.numel
  transposes_S16x16384_S16384x16_1_0 : S16x16384.Transposes [1, 0] S16384x16
  scatter_S1000x24_S1_S1000x16_01_n_1_0_wf : ScatterDims.WF S1000x24 S1 S1000x16 [0, 1] [] [1] 0
  scatter_S1000x24_S1_S1000_0_1_1_0_wf : ScatterDims.WF S1000x24 S1 S1000 [0] [1] [1] 0
  dot_S200x24_S200x2048_S24x2048_0_0_1_1_n_n_wf : DotDims.WF S200x24 S200x2048 S24x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x24.size a ≤ S1000x24.size a
  hwx0_0 : ∀ i : grid0.Coords, EltTy.bits .f32 = 32 ∨ (Rect.block (s := S1000x24) S200x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x2048.size a ≤ S1000x16384.size a
  hwx0_1 : ∀ i : grid0.Coords, EltTy.bits .f32 = 32 ∨ (Rect.block (s := S1000x16384) S200x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x16384.size a
  hwx0_2 : ∀ i : grid0.Coords, EltTy.bits .f32 = 32 ∨ (Rect.block (s := S16x16384) S16x2048.size (cc0_transform_2 i) (hinb0_2 i)).WholeWords (EltTy.packing .f32)

variable [Facts₀]

def scatter_S1000x24_S1_S1000x16_01_n_1_0 : ScatterDims S1000x24 S1 S1000x16 where
  updateWindowDims := [0, 1]
  insertedWindowDims := []
  scatterDimsToOperandDims := [1]
  indexVectorDim := 0
  wf := scatter_S1000x24_S1_S1000x16_01_n_1_0_wf
def scatter_S1000x24_S1_S1000_0_1_1_0 : ScatterDims S1000x24 S1 S1000 where
  updateWindowDims := [0]
  insertedWindowDims := [1]
  scatterDimsToOperandDims := [1]
  indexVectorDim := 0
  wf := scatter_S1000x24_S1_S1000_0_1_1_0_wf
def dot_S200x24_S200x2048_S24x2048_0_0_1_1_n_n : DotDims S200x24 S200x2048 S24x2048 where
  lhsContracting := [0]
  rhsContracting := [0]
  lhsNonContracting := [1]
  rhsNonContracting := [1]
  lhsBatch := []
  rhsBatch := []
  wf := dot_S200x24_S200x2048_S24x2048_0_0_1_1_n_n_wf

abbrev win0_0 : Pipeline.Window sig grid0 :=
  Pipeline.Window.ofSpec (Memref.whole main_v6) S200x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1000 : Shape := ⟨2, ![16384, 1000]⟩
abbrev S1000x16 : Shape := ⟨2, ![1000, 16]⟩
abbrev S_ : Shape := ⟨0, ![]⟩
abbrev S16384 : Shape := ⟨1, ![16384]⟩
abbrev S16384x1 : Shape := ⟨2, ![16384, 1]⟩
abbrev S16384x16 : Shape := ⟨2, ![16384, 16]⟩

abbrev nBuf : Space → Nat
  | .hbm => 17
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x16, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1000, .f32⟩
  | .hbm, ⟨15, _⟩ => ⟨S16384x1000, .f32⟩
  | .hbm, ⟨16, _⟩ => ⟨S16384x16, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  dot_S16384x1000_S1000x16_S16384x16_1_0_0_1_n_n_wf : DotDims.WF S16384x1000 S1000x16 S16384x16 [1] [0] [0] [1] [] []

variable [Facts₀]

def dot_S16384x1000_S1000x16_S16384x16_1_0_0_1_n_n : DotDims S16384x1000 S1000x16 S16384x16 where
  lhsContracting := [1]
  rhsContracting := [0]
  lhsNonContracting := [0]
  rhsNonContracting := [1]
  lhsBatch := []
  rhsBatch := []
  wf := dot_S16384x1000_S1000x16_S16384x16_1_0_0_1_n_n_wf

class Facts : Prop extends Facts₀ where

variable [Facts]
-- ==== Proof.Pieces.lean ====
/-
  What one run of the kernel body leaves behind, in each of its three cases, as values of the body's loads:

  * first point of a column block (`j = 0`): the carried tile is reset to zero and the step is added to it;
  * middle points (`0 < j < 4`): the step is added to the tile the point before left;
  * last point (`j = 4`): the step is added, and the output block is the quotient of the new tile's rows.

  `x0` is the table block (`[200, 24]`), `x1` the selection block (`[200, 2048]`), `xs0` the carried tile as the
  point finds it. Each buffer is stored whole, so what it holds is the last store's value; a load of the tile
  after a store of the same run reads that store.
-/
import proofs.«100463_g13202729468280_cont_week2_1087_32_alg».proof.Proof.Gen.KernelIdeal.Frame
import Idealize.ShloMosaic.Lib.Pipeline.Value
import Idealize.ShloMosaic.Lib.Tactic

noncomputable section

namespace Cert.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First point of a column block: the tile ends at the step added to the zero tile. -/
theorem tile_first (c : Dev nD) (i : grid0.Coords) (arg2 : Memref sig .tc .vmem S200x24 .f32) (harg2 : arg2.IsWhole) (arg3 : Memref sig .tc .vmem S200x2048 .f32) (harg3 : arg3.IsWhole) (arg4 : Memref sig .tc .vmem S16x2048 .f32) (harg4 : arg4.IsWhole) (arg5 : Memref sig .tc .vmem S24x2048 .f32) (harg5 : arg5.IsWhole) (hc0 : cond0_0 i) (hc1 : ¬cond0_1 i)
    (x0 : Vec F S200x24 .f32) (x1 : Vec F S200x2048 .f32) :
    sout0_A_0 c i arg2 harg2 arg3 harg3 arg4 harg4 arg5 harg5 hc0 hc1 x0 x1 = k0_pay2 x1 x0 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S24x2048) hz, View.readCov_unit_zero (S := S24x2048) _ hz]
  simp only [View.readAt_eq_ld, harg2.read_unread, harg3.read_unread, View.ld_unit_zero (S := S200x24) hz, View.ld_unit_zero (S := S200x2048) hz, View.ld_unit_zero (S := S24x2048) hz]

/-- A middle point: the tile ends at the step added to the tile it found. -/
theorem tile_middle (c : Dev nD) (i : grid0.Coords) (arg2 : Memref sig .tc .vmem S200x24 .f32) (harg2 : arg2.IsWhole) (arg3 : Memref sig .tc .vmem S200x2048 .f32) (harg3 : arg3.IsWhole) (arg4 : Memref sig .tc .vmem S16x2048 .f32) (harg4 : arg4.IsWhole) (arg5 : Memref sig .tc .vmem S24x2048 .f32) (harg5 : arg5.IsWhole) (hc0 : ¬cond0_0 i) (hc1 : ¬cond0_1 i)
    (x0 : Vec F S200x24 .f32) (x1 : Vec F S200x2048 .f32) (xs0 : Vec F S24x2048 .f32) :
    sout0_B_0 c i arg2 harg2 arg3 harg3 arg4 harg4 arg5 harg5 hc0 hc1 x0 x1 xs0 = k0_pay2 x1 x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S200x24) hz, View.ld_unit_zero (S := S200x2048) hz, View.ld_unit_zero (S := S24x2048) hz]

/-- The last point: the tile ends at the step added to the tile it found, -/
theorem tile_last (c : Dev nD) (i : grid0.Coords) (arg2 : Memref sig .tc .vmem S200x24 .f32) (harg2 : arg2.IsWhole) (arg3 : Memref sig .tc .vmem S200x2048 .f32) (harg3 : arg3.IsWhole) (arg4 : Memref sig .tc .vmem S16x2048 .f32) (harg4 : arg4.IsWhole) (arg5 : Memref sig .tc .vmem S24x2048 .f32) (harg5 : arg5.IsWhole) (hc0 : ¬cond0_0 i) (hc1 : cond0_1 i)
    (x0 : Vec F S200x24 .f32) (x1 : Vec F S200x2048 .f32) (xs0 : Vec F S24x2048 .f32) :
    sout0_C_0 c i arg2 harg2 arg3 harg3 arg4 harg4 arg5 harg5 hc0 hc1 x0 x1 xs0 = k0_pay2 x1 x0 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S200x24) hz, View.ld_unit_zero (S := S200x2048) hz, View.ld_unit_zero (S := S24x2048) hz]

/-- and the output block at the quotient of that tile's rows. -/
theorem block_last (c : Dev nD) (i : grid0.Coords) (arg2 : Memref sig .tc .vmem S200x24 .f32) (harg2 : arg2.IsWhole) (arg3 : Memref sig .tc .vmem S200x2048 .f32) (harg3 : arg3.IsWhole) (arg4 : Memref sig .tc .vmem S16x2048 .f32) (harg4 : arg4.IsWhole) (arg5 : Memref sig .tc .vmem S24x2048 .f32) (harg5 : arg5.IsWhole) (hc0 : ¬cond0_0 i) (hc1 : cond0_1 i)
    (x0 : Vec F S200x24 .f32) (x1 : Vec F S200x2048 .f32) (xs0 : Vec F S24x2048 .f32) :
    out0_C_2 c i arg2 harg2 arg3 harg3 arg4 harg4 arg5 harg5 hc0 hc1 x0 x1 xs0 = k0_pay3 (k0_pay2 x1 x0 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.readCov_unit_zero (S := S24x2048) _ hz, View.ld_unit_zero (S := S200x24) hz, View.ld_unit_zero (S := S200x2048) hz, View.ld_unit_zero (S := S24x2048) hz]

end Cert.Pieces

end
-- ==== Proof.Payload.lean ====
/-
  The three values the kernel body stores, each read at an entry (at the ideal instance):
  the reset value (zero), the accumulation step (the carried tile plus the product of the table block's
  transpose with the exps of the selection block), and the closing quotient (rows `0 … 15` of the carried tile,
  each divided by row `16`).
-/
import proofs.«100463_g13202729468280_cont_week2_1087_32_alg».proof.Proof.Gen.KernelIdeal.Skeleton
import Idealize.ShloMosaic.Lib.ValueIdx
import Idealize.ShloMosaic.Lib.Pipeline.Value
import Idealize.ShloMosaic.PureOps.Ideal.Laws

noncomputable section

namespace Cert.Payload

open Idealize.ShloMosaic Idealize.ShloMosaic.ValueIdx Cert.KernelIdeal Cert.KernelIdeal.Gen
open scoped BigOperators

/-- On the table block's contracted axis `0` the product's left index is the contraction position. -/
private theorem lhs_dot_0 (i : S24x2048.Idx) (q : dot_S200x24_S200x2048_S24x2048_0_0_1_1_n_n.contr.Idx) :
    (dot_S200x24_S200x2048_S24x2048_0_0_1_1_n_n.lhsIdx i q 0).val = (q ⟨0, by decide⟩).val :=
  dot_S200x24_S200x2048_S24x2048_0_0_1_1_n_n.lhsIdx_val_of_single rfl i q

/-- On the table block's kept axis `1` the product's left index is the result's row. -/
private theorem lhs_dot_1 (i : S24x2048.Idx) (q : dot_S200x24_S200x2048_S24x2048_0_0_1_1_n_n.contr.Idx) :
    (dot_S200x24_S200x2048_S24x2048_0_0_1_1_n_n.lhsIdx i q 1).val = (i 0).val := by
  unfold DotDims.lhsIdx
  rw [dif_neg (show ¬(1 : Fin S200x24.rank) ∈ dot_S200x24_S200x2048_S24x2048_0_0_1_1_n_n.lhsBatch by decide), dif_pos (show (1 : Fin S200x24.rank) ∈ dot_S200x24_S200x2048_S24x2048_0_0_1_1_n_n.lhsNonContracting by decide)]
  rfl

/-- On the selection block's contracted axis `0` the product's right index is the contraction position. -/
private theorem rhs_dot_0 (i : S24x2048.Idx) (q : dot_S200x24_S200x2048_S24x2048_0_0_1_1_n_n.contr.Idx) :
    (dot_S200x24_S200x2048_S24x2048_0_0_1_1_n_n.rhsIdx i q 0).val = (q ⟨0, by decide⟩).val :=
  dot_S200x24_S200x2048_S24x2048_0_0_1_1_n_n.rhsIdx_val_of_single rfl i q

/-- On the selection block's kept axis `1` the product's right index is the result's column. -/
private theorem rhs_dot_1 (i : S24x2048.Idx) (q : dot_S200x24_S200x2048_S24x2048_0_0_1_1_n_n.contr.Idx) :
    (dot_S200x24_S200x2048_S24x2048_0_0_1_1_n_n.rhsIdx i q 1).val = (i 1).val := by
  unfold DotDims.rhsIdx
  rw [dif_neg (show ¬(1 : Fin S200x2048.rank) ∈ dot_S200x24_S200x2048_S24x2048_0_0_1_1_n_n.rhsBatch by decide), dif_pos (show (1 : Fin S200x2048.rank) ∈ dot_S200x24_S200x2048_S24x2048_0_0_1_1_n_n.rhsNonContracting by decide)]
  rfl

/-- The reset value is zero at every entry. -/
theorem pay1_apply (c : Fin 24) (l : Fin 2048) : (k0_pay1 (F := Ideal)) (ix2 c l) = (0 : EReal) := by
  unfold k0_pay1
  -- a cast to the same shape changes nothing; the splat reads its scalar; the zero word is the real zero
  refine (congrFun (shapeCast_self _ shapeCasts_S24x2048_S24x2048) (ix2 c l)).trans ?_
  exact Ideal.ofBits_zero_f32

/-- The accumulation step at `(c, l)`: the carried entry plus the sum over the block's 200 rows of the table
    block's `(r, c)` times the exp of the selection block's `(r, l)`. -/
theorem pay2_apply (v3 : Vec Ideal S200x2048 .f32) (v7 : Vec Ideal S200x24 .f32) (v10 : Vec Ideal S24x2048 .f32)
    (c : Fin 24) (l : Fin 2048) :
    k0_pay2 (F := Ideal) v3 v7 v10 (ix2 c l)
      = v10 (ix2 c l) + ∑ r : Fin 200, v7 (ix2 r c) * Ideal.exp (v3 (ix2 r l)) := by
  unfold k0_pay2
  -- a cast to the same shape changes nothing, and the sum of two tiles reads entry by entry
  refine (congrFun (shapeCast_self _ shapeCasts_S24x2048_S24x2048) (ix2 c l)).trans ?_
  refine congrArg (v10 (ix2 c l) + ·) ?_
  -- the product into the zero tile is the sum over the contraction index of the operands' products
  refine (Ideal.matmul_constant_zero_apply dot_S200x24_S200x2048_S24x2048_0_0_1_1_n_n none _ _ (ix2 c l)).trans ?_
  -- the contraction index is its one coordinate, a row number of the two blocks
  rw [← Equiv.sum_comp (contrEquiv1 dot_S200x24_S200x2048_S24x2048_0_0_1_1_n_n 200 rfl rfl).symm]
  refine Finset.sum_congr rfl fun r _ => ?_
  have hk := contrEquiv1_symm_val dot_S200x24_S200x2048_S24x2048_0_0_1_1_n_n 200 rfl rfl r
  -- the left operand is read at (r, c), the right one at (r, l)
  have el : dot_S200x24_S200x2048_S24x2048_0_0_1_1_n_n.lhsIdx (ix2 c l) ((contrEquiv1 dot_S200x24_S200x2048_S24x2048_0_0_1_1_n_n 200 rfl rfl).symm r) = ix2 r c := funext fun a => Fin.ext (by
    match a with
    | ⟨0, _⟩ => exact (lhs_dot_0 _ _).trans hk
    | ⟨1, _⟩ => exact lhs_dot_1 _ _)
  have er : dot_S200x24_S200x2048_S24x2048_0_0_1_1_n_n.rhsIdx (ix2 c l) ((contrEquiv1 dot_S200x24_S200x2048_S24x2048_0_0_1_1_n_n 200 rfl rfl).symm r) = ix2 r l := funext fun a => Fin.ext (by
    match a with
    | ⟨0, _⟩ => exact (rhs_dot_0 _ _).trans hk
    | ⟨1, _⟩ => exact rhs_dot_1 _ _)
  rw [el, er]
  -- the narrowing is the identity on ideal values, the casts keep the shape, the exp is entry by entry
  rw [shapeCast_self v7 shapeCasts_S200x24_S200x24, shapeCast_self v3 shapeCasts_S200x2048_S200x2048]
  rfl

/-- The closing quotient at `(s, l)`: row `s` of the carried tile over its row `16`. -/
theorem pay3_apply (v19 : Vec Ideal S24x2048 .f32) (s : Fin 16) (l : Fin 2048) :
    k0_pay3 (F := Ideal) v19 (ix2 s l)
      = Ideal.div (v19 (ix2 (⟨s.val, by omega⟩ : Fin 24) l)) (v19 (ix2 (⟨16, by decide⟩ : Fin 24) l)) := by
  unfold k0_pay3
  -- the quotient reads entry by entry
  refine congrArg₂ Ideal.div ?_ ?_
  · -- rows 0 … 15 of the tile: the slice at offset (0, 0)
    exact extractStridedSlice_apply ![0, 0] v19 slices_S24x2048_o0_0_S16x2048 (ix2 s l) (ix2 (⟨s.val, by omega⟩ : Fin 24) l)
      (fun a => match a with
        | ⟨0, _⟩ => by show s.val = 0 + s.val; omega
        | ⟨1, _⟩ => by show l.val = 0 + l.val; omega)
  · -- the one-row slice at offset (16, 0), repeated down the 16 rows
    refine (broadcastTo_apply (extractStridedSlice S1x2048 ![16, 0] v19 slices_S24x2048_o16_0_S1x2048) broadcasts_S1x2048_S16x2048
      (ix2 s l) (ix2 (0 : Fin 1) l)
      (fun a => match a with
        | ⟨0, _⟩ => by show 0 = if (1 : Nat) = 1 then 0 else s.val; rw [if_pos rfl]
        | ⟨1, _⟩ => by show l.val = if (2048 : Nat) = 1 then 0 else l.val; rw [if_neg (by decide)])).trans ?_
    exact extractStridedSlice_apply ![16, 0] v19 slices_S24x2048_o16_0_S1x2048 (ix2 (0 : Fin 1) l) (ix2 (⟨16, by decide⟩ : Fin 24) l)
      (fun a => match a with
        | ⟨0, _⟩ => by show 16 = 16 + 0; rfl
        | ⟨1, _⟩ => by show l.val = 0 + l.val; omega)

end Cert.Payload

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Accum.lean ====
/-
  The accumulation over the grid. The grid is `8 × 5`: point `t = 5k + j` handles column block `k` (2048 columns of
  the transposed selections, that is 2048 batch rows) and row block `j` (200 of the 1000 items). Write
      term q l k n = table[n, q] · exp(selT[n, 2048k + l]).
  After point `5k + j` the carried tile holds at `(q, l)` the sum of `term q l k` over the first `j + 1` row
  blocks: the reset at `j = 0` starts it from zero and every point adds its own block of 200 terms. After the
  last point of the column block it is the sum over all 1000 items, and the output block is the quotient of the
  tile's row `s` by its row `16`.
-/
import proofs.«100463_g13202729468280_cont_week2_1087_32_alg».proof.Proof.Pieces
import proofs.«100463_g13202729468280_cont_week2_1087_32_alg».proof.Proof.Payload
import proofs.«100463_g13202729468280_cont_week2_1087_32_alg».proof.Proof.LibSums
import Idealize.ShloMosaic.Lib.ValueIdx
import Idealize.ShloMosaic.Lib.Pipeline.Value

noncomputable section

namespace Cert.Accum

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ)

/-- The widened table and the transposed selections as the call finds them, and their blocks at a point. -/
abbrev tarr (c : Dev nD) : Vec Ideal S1000x24 .f32 := V m c main_v6
abbrev sarr (c : Dev nD) : Vec Ideal S1000x16384 .f32 := V m c main_v0
abbrev tblk (c : Dev nD) (t : Fin cfg0.N) : Vec Ideal S200x24 .f32 := iblk m c 0 t
abbrev sblk (c : Dev nD) (t : Fin cfg0.N) : Vec Ideal S200x2048 .f32 := iblk m c 1 t

/-- The block indices at point `t = 5k + j`: the table's block is `(j, 0)`, the selections' `(j, k)`, the
    output's `(0, k)`. -/
theorem idx_facts : ∀ t : Fin cfg0.N,
    win0_0.index t (0 : Fin 2) = t.val % 5 ∧ win0_0.index t (1 : Fin 2) = 0
    ∧ win0_1.index t (0 : Fin 2) = t.val % 5 ∧ win0_1.index t (1 : Fin 2) = t.val / 5
    ∧ win0_2.index t (0 : Fin 2) = 0 ∧ win0_2.index t (1 : Fin 2) = t.val / 5 :=
  (by decide +kernel : ∀ t : Fin grid0.N,
    win0_0.index t (0 : Fin 2) = t.val % 5 ∧ win0_0.index t (1 : Fin 2) = 0
    ∧ win0_1.index t (0 : Fin 2) = t.val % 5 ∧ win0_1.index t (1 : Fin 2) = t.val / 5
    ∧ win0_2.index t (0 : Fin 2) = 0 ∧ win0_2.index t (1 : Fin 2) = t.val / 5)

/-- Row `r` of the table's block at a point of row block `j` is row `200 j + r` of the table. -/
theorem tblk_apply (c : Dev nD) (t : Fin cfg0.N) (j : ℕ) (hj : t.val % 5 = j) (r : Fin 200) (q : Fin 24) :
    tblk m c t (ix2 r q) = tarr m c (ix2 (⟨200 * j + r.val, by have := r.isLt; omega⟩ : Fin 1000) q) := by
  obtain ⟨e0, e1, -, -, -, -⟩ := idx_facts t
  show V m c main_v6 (((cfg0.win 0).blk t).view.emb (ix2 r q)) = V m c main_v6 _
  refine congrArg (V m c main_v6) (funext fun a => Fin.ext ?_)
  match a with
  | ⟨0, _⟩ => show win0_0.index t (0 : Fin 2) * 200 + 1 * r.val = 200 * j + r.val; rw [e0, hj]; omega
  | ⟨1, _⟩ => show win0_0.index t (1 : Fin 2) * 24 + 1 * q.val = q.val; rw [e1]; omega

/-- Entry `(r, l)` of the selections' block at a point of row block `j`, column block `k`, is entry
    `(200 j + r, 2048 k + l)` of the transposed selections. -/
theorem sblk_apply (c : Dev nD) (t : Fin cfg0.N) (j : ℕ) (hj : t.val % 5 = j) (k : Fin 8) (hk : t.val / 5 = k.val)
    (r : Fin 200) (l : Fin 2048) :
    sblk m c t (ix2 r l) = sarr m c (ix2 (⟨200 * j + r.val, by have := r.isLt; omega⟩ : Fin 1000)
      (⟨2048 * k.val + l.val, by have := k.isLt; have := l.isLt; omega⟩ : Fin 16384)) := by
  obtain ⟨-, -, e0, e1, -, -⟩ := idx_facts t
  show V m c main_v0 (((cfg0.win 1).blk t).view.emb (ix2 r l)) = V m c main_v0 _
  refine congrArg (V m c main_v0) (funext fun a => Fin.ext ?_)
  match a with
  | ⟨0, _⟩ => show win0_1.index t (0 : Fin 2) * 200 + 1 * r.val = 200 * j + r.val; rw [e0, hj]; omega
  | ⟨1, _⟩ => show win0_1.index t (1 : Fin 2) * 2048 + 1 * l.val = 2048 * k.val + l.val; rw [e1, hk]; omega

/-- The summand: the table's entry `(n, q)` times the exp of the transposed selections' entry `(n, 2048 k + l)`. -/
def term (c : Dev nD) (q : Fin 24) (l : Fin 2048) (k : Fin 8) : Fin (5 * 200) → EReal := fun n =>
  tarr m c (ix2 (⟨n.val, by have := n.isLt; omega⟩ : Fin 1000) q)
    * Ideal.exp (sarr m c (ix2 (⟨n.val, by have := n.isLt; omega⟩ : Fin 1000)
        (⟨2048 * k.val + l.val, by have := k.isLt; have := l.isLt; omega⟩ : Fin 16384)))

/-- THE INVARIANT: after point `n = 5k + j` the carried tile at `(q, l)` is the sum of the summand over the first
    `j + 1` row blocks. By induction on the point: a first point starts from the zero tile, every other point adds
    its block to what the point before left. -/
theorem tile_eq (c : Dev nD) : ∀ (n : ℕ) (hn : n < cfg0.N) (q : Fin 24) (l : Fin 2048) (k : Fin 8) (j : ℕ) (hj : j < 5),
    n / 5 = k.val → n % 5 = j →
    (outsAt0 m c n hn).2 (ix2 q l) = Cert.Sums.prefixBlocks 5 200 (term m c q l k) (j + 1) hj := by
  intro n
  induction n using Nat.strong_induction_on with
  | _ n ih =>
    intro hn q l k j hj hk hjn
    have hN : cfg0.N = 40 := N_0
    by_cases h0 : n % 5 = 0
    · have h1 : ¬ n % 5 = 4 := by omega
      rw [outsAt0_A m c ⟨n, hn⟩ h0 h1]
      dsimp only
      refine (congrFun (Cert.Pieces.tile_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩)) (ix2 q l)).trans ?_
      refine (Cert.Payload.pay2_apply (sblk m c ⟨n, hn⟩) (tblk m c ⟨n, hn⟩) (k0_pay1 (F := Ideal)) q l).trans ?_
      obtain rfl : j = 0 := by omega
      rw [Cert.Payload.pay1_apply, Cert.Sums.prefixBlocks_succ 5 200 _ 0 hj, Cert.Sums.prefixBlocks_zero]
      refine congrArg (0 + ·) (Finset.sum_congr rfl fun r _ => ?_)
      rw [tblk_apply m c ⟨n, hn⟩ 0 h0, sblk_apply m c ⟨n, hn⟩ 0 h0 k hk]
      rfl
    · obtain ⟨j', rfl⟩ : ∃ j', j = j' + 1 := ⟨j - 1, by omega⟩
      have hprev := ih (n - 1) (by omega) (Nat.lt_of_le_of_lt (Nat.sub_le _ _) hn) q l k j' (by omega) (by omega) (by omega)
      by_cases h1 : n % 5 = 4
      · rw [outsAt0_C m c ⟨n, hn⟩ h0 h1]
        dsimp only
        refine (congrFun (Cert.Pieces.tile_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (outsAt0 m c (n - 1) (Nat.lt_of_le_of_lt (Nat.sub_le _ _) hn)).2) (ix2 q l)).trans ?_
        refine (Cert.Payload.pay2_apply (sblk m c ⟨n, hn⟩) (tblk m c ⟨n, hn⟩) (outsAt0 m c (n - 1) (Nat.lt_of_le_of_lt (Nat.sub_le _ _) hn)).2 q l).trans ?_
        rw [hprev, Cert.Sums.prefixBlocks_succ 5 200 _ (j' + 1) hj]
        refine congrArg (_ + ·) (Finset.sum_congr rfl fun r _ => ?_)
        rw [tblk_apply m c ⟨n, hn⟩ (j' + 1) hjn, sblk_apply m c ⟨n, hn⟩ (j' + 1) hjn k hk]
        rfl
      · rw [outsAt0_B m c ⟨n, hn⟩ h0 h1]
        dsimp only
        refine (congrFun (Cert.Pieces.tile_middle (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (outsAt0 m c (n - 1) (Nat.lt_of_le_of_lt (Nat.sub_le _ _) hn)).2) (ix2 q l)).trans ?_
        refine (Cert.Payload.pay2_apply (sblk m c ⟨n, hn⟩) (tblk m c ⟨n, hn⟩) (outsAt0 m c (n - 1) (Nat.lt_of_le_of_lt (Nat.sub_le _ _) hn)).2 q l).trans ?_
        rw [hprev, Cert.Sums.prefixBlocks_succ 5 200 _ (j' + 1) hj]
        refine congrArg (_ + ·) (Finset.sum_congr rfl fun r _ => ?_)
        rw [tblk_apply m c ⟨n, hn⟩ (j' + 1) hjn, sblk_apply m c ⟨n, hn⟩ (j' + 1) hjn k hk]
        rfl

/-- After the last point of column block `k` the tile at `(q, l)` is the sum over all 1000 items. -/
theorem tile_full (c : Dev nD) (n : ℕ) (hn : n < cfg0.N) (h4 : n % 5 = 4) (k : Fin 8) (hk : n / 5 = k.val)
    (q : Fin 24) (l : Fin 2048) :
    (outsAt0 m c n hn).2 (ix2 q l) = ∑ i, term m c q l k i := by
  rw [tile_eq m c n hn q l k 4 (by omega) hk h4]
  exact Cert.Sums.prefixBlocks_all 5 200 _

/-- THE OUTPUT BLOCK a last point leaves: at `(s, l)` the full sum with the table's column `s` over the full sum
    with its column `16`. -/
theorem block_eq (c : Dev nD) (n : ℕ) (hn : n < cfg0.N) (h4 : n % 5 = 4) (k : Fin 8) (hk : n / 5 = k.val)
    (s : Fin 16) (l : Fin 2048) :
    (outsAt0 m c n hn).1 (ix2 s l)
      = Ideal.div (∑ i, term m c (⟨s.val, by omega⟩ : Fin 24) l k i) (∑ i, term m c (⟨16, by decide⟩ : Fin 24) l k i) := by
  have h0 : ¬ n % 5 = 0 := by omega
  have hT : k0_pay2 (F := Ideal) (sblk m c ⟨n, hn⟩) (tblk m c ⟨n, hn⟩) (outsAt0 m c (n - 1) (Nat.lt_of_le_of_lt (Nat.sub_le _ _) hn)).2 = (outsAt0 m c n hn).2 := by
    rw [outsAt0_C m c ⟨n, hn⟩ h0 h4]
    dsimp only
    exact (Cert.Pieces.tile_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h4) (iblk m c 0 ⟨n, hn⟩) (iblk m c 1 ⟨n, hn⟩) (outsAt0 m c (n - 1) (Nat.lt_of_le_of_lt (Nat.sub_le _ _) hn)).2).symm
  have hB : (outsAt0 m c n hn).1 = k0_pay3 (F := Ideal) (outsAt0 m c n hn).2 := by
    rw [← hT, outsAt0_C m c ⟨n, hn⟩ h0 h4]
    dsimp only
    exact Cert.Pieces.block_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h4) (iblk m c 0 ⟨n, hn⟩) (iblk m c 1 ⟨n, hn⟩) (outsAt0 m c (n - 1) (Nat.lt_of_le_of_lt (Nat.sub_le _ _) hn)).2
  rw [hB, Cert.Payload.pay3_apply, tile_full m c n hn h4 k hk, tile_full m c n hn h4 k hk]

end Cert.Accum

end
-- ==== Proof.HostTable.lean ====
/-
  The table the kernel's program builds on the host before the call: a `[1000, 24]` array of zeros, the item
  table written into its columns `0 … 15`, and the number one written down its column `16`. Read at an entry of
  the first seventeen columns it is the item table's entry, or one.
-/
import proofs.«100463_g13202729468280_cont_week2_1087_32_alg».proof.Proof.Gen.KernelIdeal
import Idealize.ShloMosaic.Lib.ValueIdx
import Idealize.ShloMosaic.PureOps.Ideal

noncomputable section

namespace Cert.HostTable

open Idealize.ShloMosaic Idealize.ShloMosaic.ValueIdx Cert.KernelIdeal Cert.KernelIdeal.Facts₀

variable {F : FTy → Type} [FloatOps F]

/-- The widened table as the host operations compute it from the item table `a`: two replacing scatters, each
    at one start index (column `0`, then column `16`), into the zero table. -/
def augOf (a : FVec F S1000x16 .f32) : FVec F S1000x24 .f32 :=
  Host.scatter scatter_S1000x24_S1_S1000_0_1_1_0 (fun _ b => b)
    (Host.scatter scatter_S1000x24_S1_S1000x16_01_n_1_0 (fun _ b => b)
      (broadcastInDim S1000x24 ![] bcast_S_S1000x24 (constant S_ .f32 0x00000000#32))
      (broadcastInDim S1 ![] bcast_S_S1 (constantI S_ 32 0#32)) a)
    (broadcastInDim S1 ![] bcast_S_S1 (constantI S_ 32 16#32))
    (broadcastInDim S1000 ![] bcast_S_S1000 (constant S_ .f32 0x3F800000#32))

/-! ### A fold of updates, read at one entry

Update `n` lands at the entry `g n` (when there is one). Of the step `stp` only two things are used: at an entry the
update lands on it leaves `v n`, and at any other entry it leaves what was there. Read at an entry `i'` after all the
updates of a list: if no update lands on `i'` the entry is what it was; if some do, and they all carry the same value
`c`, it is `c` (the order among them does not matter then). Both by induction on the list from its last update. -/

section Fold

variable {ι κ α : Type}

private theorem fold_miss (stp : (κ → α) → ι → κ → α) (g : ι → Option κ) (l : List ι) (x : κ → α) (i' : κ)
    (hmiss : ∀ r n, g n ≠ some i' → stp r n i' = r i')
    (hno : ∀ n ∈ l, g n ≠ some i') : l.foldl stp x i' = x i' := by
  induction l using List.reverseRecOn with
  | nil => rfl
  | append_singleton l n ih =>
    rw [List.foldl_append, List.foldl_cons, List.foldl_nil,
      hmiss _ n (hno n (List.mem_append_right _ (List.mem_singleton_self n)))]
    exact ih fun m hm => hno m (List.mem_append_left _ hm)

private theorem fold_hit (stp : (κ → α) → ι → κ → α) (g : ι → Option κ) (v : ι → α) (l : List ι) (x : κ → α)
    (i' : κ) (c : α) (hhit : ∀ r n, g n = some i' → stp r n i' = v n)
    (hmiss : ∀ r n, g n ≠ some i' → stp r n i' = r i')
    (hall : ∀ n ∈ l, g n = some i' → v n = c) (hex : ∃ n ∈ l, g n = some i') : l.foldl stp x i' = c := by
  induction l using List.reverseRecOn with
  | nil => obtain ⟨n, hn, _⟩ := hex; exact absurd hn List.not_mem_nil
  | append_singleton l n ih =>
    rw [List.foldl_append, List.foldl_cons, List.foldl_nil]
    by_cases hg : g n = some i'
    · -- the last update lands on `i'`: the entry is its value
      rw [hhit _ n hg]
      exact hall n (List.mem_append_right _ (List.mem_singleton_self n)) hg
    · -- it does not: the entry is what the earlier updates left, and one of those lands on `i'`
      rw [hmiss _ n hg]
      refine ih (fun m hm => hall m (List.mem_append_left _ hm)) ?_
      obtain ⟨m, hm, hgm⟩ := hex
      rcases List.mem_append.1 hm with h | h
      · exact ⟨m, h, hgm⟩
      · rw [List.mem_singleton.1 h] at hgm; exact absurd hgm hg

end Fold

/-! ### The replacing scatter, read at one entry

The scatter is the fold of its updates in row-major order, update `j` landing at its result index; with the body
that returns the update, its step leaves the update's element where it lands and nothing else changes. -/

section Scatter

variable {s si u : Shape} {w : Nat} {α : Type}

/-- An entry no update lands on keeps the operand's element. -/
private theorem scatter_miss (d : ScatterDims s si u) (x : s.Idx → α) (idx : IVec si w) (upd : u.Idx → α)
    (i' : s.Idx) (hno : ∀ j, d.resultIdx? j idx ≠ some i') :
    Host.scatter d (fun _ b => b) x idx upd i' = x i' := by
  unfold Host.scatter
  refine fold_miss _ (fun n => d.resultIdx? (u.rowMajor.symm n) idx) _ x i' (fun r n h => ?_) (fun n _ => hno _)
  generalize d.resultIdx? (u.rowMajor.symm n) idx = o at h ⊢
  cases o with
  | none => rfl
  | some i => exact if_neg fun e => h (by rw [e])

/-- An entry some update lands on, all the updates that do carrying the value `c`, holds `c`. -/
private theorem scatter_hit (d : ScatterDims s si u) (x : s.Idx → α) (idx : IVec si w) (upd : u.Idx → α)
    (i' : s.Idx) (c : α) (hall : ∀ j, d.resultIdx? j idx = some i' → upd j = c)
    (j₀ : u.Idx) (hex : d.resultIdx? j₀ idx = some i') :
    Host.scatter d (fun _ b => b) x idx upd i' = c := by
  unfold Host.scatter
  refine fold_hit _ (fun n => d.resultIdx? (u.rowMajor.symm n) idx) (fun n => upd (u.rowMajor.symm n)) _ x i' c
    (fun r n h => ?_) (fun r n h => ?_) (fun n _ h => hall _ h) ⟨u.rowMajor j₀, List.mem_finRange _, ?_⟩
  · generalize d.resultIdx? (u.rowMajor.symm n) idx = o at h ⊢
    cases o with
    | none => cases h
    | some i => exact if_pos (Option.some.inj h).symm
  · generalize d.resultIdx? (u.rowMajor.symm n) idx = o at h ⊢
    cases o with
    | none => rfl
    | some i => exact if_neg fun e => h (by rw [e])
  · -- the update with index `j₀` is the one numbered `rowMajor j₀`
    show d.resultIdx? (u.rowMajor.symm (u.rowMajor j₀)) idx = some i'
    rw [Equiv.symm_apply_apply]; exact hex

end Scatter

/-! ### Where the two scatters' updates land

On each axis of the table the result index is the start (the start index's component on the column axis, `0` on
the row axis) plus the window coordinate; both are read off axis by axis, and the sum is inside the table. -/

/-- The item table's entry `(p, q)` lands on the widened table's entry `(p, q)`: the start is column `0` and both
    axes are window axes. -/
private theorem land_items (p : Fin 1000) (q : Fin 16) :
    scatter_S1000x24_S1_S1000x16_01_n_1_0.resultIdx? (ix2 p q)
        (broadcastInDim S1 ![] bcast_S_S1 (constantI S_ 32 0#32))
      = some (ix2 p (⟨q.val, by omega⟩ : Fin 24)) := by
  have hs : ∀ a, scatter_S1000x24_S1_S1000x16_01_n_1_0.start (ix2 p q)
      (broadcastInDim S1 ![] bcast_S_S1 (constantI S_ 32 0#32)) a = 0 := fun a =>
    match a with | ⟨0, _⟩ => rfl | ⟨1, _⟩ => rfl
  have hw0 : ∀ h0, scatter_S1000x24_S1_S1000x16_01_n_1_0.window (ix2 p q) ⟨0, h0⟩ = p.val := fun _ => rfl
  have hw1 : ∀ h1, scatter_S1000x24_S1_S1000x16_01_n_1_0.window (ix2 p q) ⟨1, h1⟩ = q.val := fun _ => rfl
  have hp := p.isLt
  have hq := q.isLt
  unfold ScatterDims.resultIdx?
  rw [dif_pos (fun a => by
    rw [hs]
    match a with
    | ⟨0, _⟩ => rw [hw0]; show 0 ≤ (0 : Int) + (p.val : Int) ∧ (0 : Int) + (p.val : Int) < ((1000 : Nat) : Int); omega
    | ⟨1, _⟩ => rw [hw1]; show 0 ≤ (0 : Int) + (q.val : Int) ∧ (0 : Int) + (q.val : Int) < ((24 : Nat) : Int); omega)]
  refine congrArg some (funext fun a => Fin.ext ?_)
  match a with
  | ⟨0, _⟩ => simp only [hs, hw0]; show ((0 : Int) + (p.val : Int)).toNat = p.val; omega
  | ⟨1, _⟩ => simp only [hs, hw1]; omega

/-- The ones column's entry `p` lands on the widened table's entry `(p, 16)`: the start is column `16`, the row
    axis is the window axis and the column axis is inserted. -/
private theorem land_ones (p : Fin 1000) :
    scatter_S1000x24_S1_S1000_0_1_1_0.resultIdx? (ix1 p)
        (broadcastInDim S1 ![] bcast_S_S1 (constantI S_ 32 16#32))
      = some (ix2 p (⟨16, by decide⟩ : Fin 24)) := by
  have hs0 : ∀ h0, scatter_S1000x24_S1_S1000_0_1_1_0.start (ix1 p)
      (broadcastInDim S1 ![] bcast_S_S1 (constantI S_ 32 16#32)) ⟨0, h0⟩ = 0 := fun _ => rfl
  have hs1 : ∀ h1, scatter_S1000x24_S1_S1000_0_1_1_0.start (ix1 p)
      (broadcastInDim S1 ![] bcast_S_S1 (constantI S_ 32 16#32)) ⟨1, h1⟩ = 16 := fun _ => rfl
  have hw0 : ∀ h0, scatter_S1000x24_S1_S1000_0_1_1_0.window (ix1 p) ⟨0, h0⟩ = p.val := fun _ => rfl
  have hw1 : ∀ h1, scatter_S1000x24_S1_S1000_0_1_1_0.window (ix1 p) ⟨1, h1⟩ = 0 := fun _ => rfl
  have hp := p.isLt
  unfold ScatterDims.resultIdx?
  rw [dif_pos (fun a => by
    match a with
    | ⟨0, _⟩ => rw [hs0, hw0]; show 0 ≤ (0 : Int) + (p.val : Int) ∧ (0 : Int) + (p.val : Int) < ((1000 : Nat) : Int); omega
    | ⟨1, _⟩ => rw [hs1, hw1]; show 0 ≤ (16 : Int) + ((0 : Nat) : Int) ∧ (16 : Int) + ((0 : Nat) : Int) < ((24 : Nat) : Int); omega)]
  refine congrArg some (funext fun a => Fin.ext ?_)
  match a with
  | ⟨0, _⟩ => simp only [hs0, hw0]; show ((0 : Int) + (p.val : Int)).toNat = p.val; omega
  | ⟨1, _⟩ => simp only [hs1, hw1]; omega

/-- Columns `0 … 15` of the widened table are the item table's columns. -/
theorem augOf_items (a : FVec Ideal S1000x16 .f32) (n : Fin 1000) (s : Fin 16) :
    augOf a (ix2 n (⟨s.val, by omega⟩ : Fin 24)) = a (ix2 n s) := by
  unfold augOf
  -- the second scatter's updates land in column `16`, so it leaves this entry as the first scatter made it
  rw [scatter_miss _ _ _ _ _ (fun j => by
    obtain ⟨p, rfl⟩ : ∃ p : Fin 1000, j = ix1 p := ⟨j 0, eq_ix1 j⟩
    rw [land_ones]
    intro h
    have h1 := congrArg (fun i : S1000x24.Idx => (i 1).val) (Option.some.inj h)
    have hs := s.isLt
    change (16 : Nat) = s.val at h1
    omega)]
  -- of the first scatter's updates exactly the item table's entry `(n, s)` lands here
  refine scatter_hit _ _ _ _ _ _ (fun j hj => ?_) (ix2 n s) (land_items n s)
  obtain ⟨p, q, rfl⟩ : ∃ (p : Fin 1000) (q : Fin 16), j = ix2 p q := ⟨j 0, j 1, eq_ix2 j⟩
  rw [land_items] at hj
  have h := Option.some.inj hj
  have h0 : p = n := congrFun h (0 : Fin 2)
  have h1 : q = s := Fin.ext (congrArg (fun i : S1000x24.Idx => (i 1).val) h)
  rw [h0, h1]

/-- Column `16` of the widened table holds the word of the number one. -/
theorem augOf_ones (a : FVec Ideal S1000x16 .f32) (n : Fin 1000) :
    augOf a (ix2 n (⟨16, by decide⟩ : Fin 24)) = Ideal.ofBits .f32 0x3F800000#32 := by
  unfold augOf
  -- the ones column's entry `n` lands here, and every entry of that column is the same word
  exact scatter_hit _ _ _ _ _ _ (fun _ _ => rfl) (ix1 n) (land_ones n)

end Cert.HostTable

end
-- ==== Proof.SoftmaxLaw.lean ====
/-
  The law that joins a softmax-weighted sum to a ratio of two plain sums, on the extended reals.

  For a row of reals `x`, a column of reals `a` and any real shift `M`,
      Σ_n ( exp(x_n − M) / (0 + Σ_k exp(x_k − M)) ) · a_n  =  ( Σ_n a_n · exp(x_n) ) / ( Σ_n 1 · exp(x_n) ).
  Both denominators are positive reals (the index set is not empty), so every division is a product with a real
  reciprocal; `exp(x − M) = exp(x) / exp(M)` and the common factor `exp(M)` cancels. All of it happens among
  reals: that is why the statement asks for real `x`, `a` and `M` (on the extended reals the distributive law
  and the cancellation fail at the infinities).

  Also here: the coercion of a finite real sum, and that a running maximum from `−∞` over a non-empty family
  of reals is a real.
-/
import Idealize.ShloMosaic.PureOps.Ideal

namespace Cert.SoftmaxLaw

open Idealize.ShloMosaic
open scoped BigOperators

variable {ι : Type*}

/-- The coercion of a finite sum of reals is the sum of the coercions. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, taken from `−∞`, of a non-empty finite family of reals is a real. -/
theorem fold_max_real (s : Finset ι) (hs : s.Nonempty) (xr : ι → ℝ) :
    ∃ M : ℝ, s.fold max (⊥ : EReal) (fun i => (xr i : EReal)) = (M : EReal) := by
  classical
  induction hs using Finset.Nonempty.cons_induction with
  | singleton a => exact ⟨xr a, by rw [Finset.fold_singleton]; exact max_bot_right _⟩
  | cons a s h hs ih =>
    obtain ⟨M, hM⟩ := ih
    exact ⟨max (xr a) M, by rw [Finset.fold_cons, hM]; exact (EReal.coe_strictMono.monotone.map_max).symm⟩

variable [Fintype ι]

/-- The softmax-weighted sum of a real column over a real row, with any real shift, is the ratio of the
    exp-weighted sum of the column to the sum of the exps. -/
theorem softmax_dot [Nonempty ι] (xr ar : ι → ℝ) (M : ℝ) :
    ∑ n, Ideal.div (Ideal.exp ((xr n : EReal) - (M : EReal)))
          (0 + ∑ k, Ideal.exp ((xr k : EReal) - (M : EReal))) * (ar n : EReal)
      = Ideal.div (∑ n, (ar n : EReal) * Ideal.exp (xr n : EReal)) (∑ n, (1 : EReal) * Ideal.exp (xr n : EReal)) := by
  have hS : 0 < ∑ k, Real.exp (xr k - M) := Finset.sum_pos (fun k _ => Real.exp_pos _) Finset.univ_nonempty
  have hD : 0 < ∑ k, Real.exp (xr k) := Finset.sum_pos (fun k _ => Real.exp_pos _) Finset.univ_nonempty
  have hSD : ∑ k, Real.exp (xr k - M) = (∑ k, Real.exp (xr k)) / Real.exp M := by
    rw [Finset.sum_div]; exact Finset.sum_congr rfl fun k _ => Real.exp_sub _ _
  simp only [← EReal.coe_sub, Ideal.exp_coe, zero_add, one_mul, ← EReal.coe_mul, ← coe_sum]
  rw [Ideal.div_coe (ne_of_gt hD), ← EReal.coe_mul]
  have hterm : ∀ n, Ideal.div ((Real.exp (xr n - M) : ℝ) : EReal) ((∑ k, Real.exp (xr k - M) : ℝ) : EReal) * (ar n : EReal)
      = ((Real.exp (xr n - M) * (1 / ∑ k, Real.exp (xr k - M)) * ar n : ℝ) : EReal) := fun n => by
    rw [Ideal.div_coe (ne_of_gt hS), ← EReal.coe_mul, ← EReal.coe_mul]
  rw [Finset.sum_congr rfl fun n _ => hterm n, ← coe_sum]
  congr 1
  rw [Finset.sum_mul]
  refine Finset.sum_congr rfl fun n _ => ?_
  rw [hSD, Real.exp_sub]
  have hM : Real.exp M ≠ 0 := (Real.exp_pos M).ne'
  have hD' : (∑ k, Real.exp (xr k)) ≠ 0 := ne_of_gt hD
  field_simp

end Cert.SoftmaxLaw
-- ==== Proof.Spec.lean ====
/-
  What the two programs compute, entry by entry, as functions of the two argument arrays
  `x : [16384, 1000]` (the selections) and `a : [1000, 16]` (the item table), and that on real data they agree.

  * `ratioAt x a b s` — the ratio form: ( Σ_n a[n,s] · exp x[b,n] ) / ( Σ_n 1 · exp x[b,n] ). The table whose
    columns are the item columns and one column of ones gives numerator and denominator from ONE matrix product.
  * `softAt x a b s` — the softmax form: Σ_n ( exp(x[b,n] − M_b) / (0 + Σ_k exp(x[b,k] − M_b)) ) · a[n,s], with
    `M_b = max(−∞, max_n x[b,n])` the row's maximum (`rowMax`).

  The literals stay as the words the programs print: `0x00000000` (zero), `0x3F800000` (one), `0xFF800000` (−∞).
-/
import Idealize.ShloMosaic.Lib.ValueIdx
import Idealize.ShloMosaic.PureOps.Ideal
import Idealize.ShloMosaic.PureOps.Ideal.Laws
import Idealize.ShloMosaic.Lib.IdealHost
import proofs.«100463_g13202729468280_cont_week2_1087_32_alg».proof.Proof.SoftmaxLaw

noncomputable section

namespace Cert.Spec

open Idealize.ShloMosaic Idealize.ShloMosaic.ValueIdx
open scoped BigOperators

/-- The selections' shape, the item table's, and the result's. -/
abbrev SX : Shape := ⟨2, ![16384, 1000]⟩
abbrev SA : Shape := ⟨2, ![1000, 16]⟩
abbrev SO : Shape := ⟨2, ![16384, 16]⟩

/-- The ratio form at row `b`, sample `s`. -/
def ratioAt (x : SX.Idx → EReal) (a : SA.Idx → EReal) (b : Fin 16384) (s : Fin 16) : EReal :=
  Ideal.div (∑ n : Fin 1000, a (ix2 n s) * Ideal.exp (x (ix2 b n)))
    (∑ n : Fin 1000, Ideal.ofBits .f32 0x3F800000#32 * Ideal.exp (x (ix2 b n)))

/-- The ratio form as a whole array. -/
def ratio (x : SX.Idx → EReal) (a : SA.Idx → EReal) : SO.Idx → EReal :=
  fun i => ratioAt x a ⟨(i 0).val, (i 0).isLt⟩ ⟨(i 1).val, (i 1).isLt⟩

theorem ratio_apply (x : SX.Idx → EReal) (a : SA.Idx → EReal) (b : Fin 16384) (s : Fin 16) :
    ratio x a (ix2 b s) = ratioAt x a b s := rfl

/-- Row `b`'s maximum, taken from −∞ and compared with −∞ once more. -/
def rowMax (x : SX.Idx → EReal) (b : Fin 16384) : EReal :=
  max (Ideal.ofBits .f32 0xFF800000#32)
    (Finset.univ.fold max (Ideal.ofBits .f32 0xFF800000#32) (fun n : Fin 1000 => x (ix2 b n)))

/-- The softmax form at row `b`, sample `s`. -/
def softAt (x : SX.Idx → EReal) (a : SA.Idx → EReal) (b : Fin 16384) (s : Fin 16) : EReal :=
  ∑ n : Fin 1000, Ideal.div (Ideal.exp (x (ix2 b n) - rowMax x b))
      (Ideal.ofBits .f32 0x00000000#32 + ∑ k : Fin 1000, Ideal.exp (x (ix2 b k) - rowMax x b)) * a (ix2 n s)

/-- The word `0x3F800000` is the number one. -/
theorem ofBits_one : Ideal.ofBits .f32 0x3F800000#32 = (1 : EReal) := Ideal.ofBits_one_f32

/-- The word `0xFF800000` is −∞. -/
theorem ofBits_neg_inf : Ideal.ofBits .f32 0xFF800000#32 = (⊥ : EReal) := by
  simp [Ideal.ofBits, Ideal.ieee]

/-- On real data the row maximum is a real. -/
theorem rowMax_real (x : SX.Idx → EReal) (hx : ∀ i, ∃ r : ℝ, x i = (r : EReal)) (b : Fin 16384) :
    ∃ M : ℝ, rowMax x b = (M : EReal) := by
  choose xr hxr using hx
  obtain ⟨M, hM⟩ := Cert.SoftmaxLaw.fold_max_real (Finset.univ : Finset (Fin 1000)) Finset.univ_nonempty
    (fun n => xr (ix2 b n))
  refine ⟨M, ?_⟩
  unfold rowMax
  rw [ofBits_neg_inf, show (fun n : Fin 1000 => x (ix2 b n)) = fun n => ((xr (ix2 b n) : ℝ) : EReal) from
    funext fun n => hxr _, hM]
  exact max_bot_left _

/-- On real data the softmax form is the ratio form. -/
theorem softAt_eq_ratioAt (x : SX.Idx → EReal) (a : SA.Idx → EReal)
    (hx : ∀ i, ∃ r : ℝ, x i = (r : EReal)) (ha : ∀ i, ∃ r : ℝ, a i = (r : EReal)) (b : Fin 16384) (s : Fin 16) :
    softAt x a b s = ratioAt x a b s := by
  obtain ⟨M, hM⟩ := rowMax_real x hx b
  choose xr hxr using hx
  choose ar har using ha
  unfold softAt ratioAt
  rw [hM, Ideal.ofBits_zero_f32, ofBits_one]
  simp only [hxr, har]
  exact Cert.SoftmaxLaw.softmax_dot (fun n : Fin 1000 => xr (ix2 b n)) (fun n : Fin 1000 => ar (ix2 n s)) M

end Cert.Spec

end
-- ==== Proof.KernelValue.lean ====
/-
  The kernel's program, end to end, at the ideal instance: its result array is the ratio form of the
  specification.

  * Before the call the host builds the widened table from the item table and transposes the selections, so the
    call's two operands are `augOf a` and `xᵀ`.
  * The output array `[16, 16384]` is tiled by the blocks the eight last points write back (column block `k`
    by point `5k + 4`), each the quotient of two full sums: entry `(s, b)` is
        ( Σ_n table[n, s] · exp xᵀ[n, b] ) / ( Σ_n table[n, 16] · exp xᵀ[n, b] ).
  * After the call the host transposes it into `[16384, 16]`.
-/
import proofs.«100463_g13202729468280_cont_week2_1087_32_alg».proof.Proof.Accum
import proofs.«100463_g13202729468280_cont_week2_1087_32_alg».proof.Proof.HostTable
import proofs.«100463_g13202729468280_cont_week2_1087_32_alg».proof.Proof.Spec
import Idealize.ShloMosaic.Lib.StableHlo.Run

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.Accum
open scoped BigOperators

variable (m : (ℓ : Loc nD τ sig) → Buf (Elt Ideal) ℓ) (ρ : Dev nD → PrngReg)

/-! ## The output array of the call -/

/-- Entry `(s, b)` of the call's output. -/
def outAt (c : Dev nD) (s : Fin 16) (b : Fin 16384) : EReal :=
  Ideal.div (∑ n : Fin 1000, tarr m c (ix2 n (⟨s.val, by omega⟩ : Fin 24)) * Ideal.exp (sarr m c (ix2 n b)))
    (∑ n : Fin 1000, tarr m c (ix2 n (⟨16, by decide⟩ : Fin 24)) * Ideal.exp (sarr m c (ix2 n b)))

/-- The call's output as a whole array. -/
def outT (c : Dev nD) : Vec Ideal S16x16384 .f32 :=
  fun i => outAt m c ⟨(i 0).val, (i 0).isLt⟩ ⟨(i 1).val, (i 1).isLt⟩

/-- What a last point writes back, entry by entry: entry `(s, l)` of its block is entry `(s, 2048 k + l)` of the
    output array. (`X` names the block the point leaves; the comparison of indices is made axis by axis.) -/
theorem flushed_at (c : Dev nD) (t : Fin cfg0.N) (h4 : t.val % 5 = 4) (X : Vec Ideal S16x2048 .f32)
    (hX : X = (outsAt0 m c t.val t.isLt).1) (y : ((cfg0.win 2).xblock (grid0.coords t)).Idx) :
    (cfg0.win 2).cut (grid0.coords t) X y = outT m c (((cfg0.win 2).blk t).view.emb y) := by
  have hN : cfg0.N = 40 := N_0
  have ht : t.val < 40 := lt_of_lt_of_eq t.isLt hN
  obtain ⟨-, -, -, -, e4, e5⟩ := idx_facts t
  have h0 : (y 0).val < 16 := (y 0).isLt
  have h1 : (y 1).val < 2048 := (y 1).isLt
  have hL : (cfg0.win 2).cut (grid0.coords t) X y
      = X (ix2 (⟨(y 0).val, h0⟩ : Fin 16) (⟨(y 1).val, h1⟩ : Fin 2048)) :=
    congrArg X (funext fun a => Fin.ext (by match a with | ⟨0, _⟩ => rfl | ⟨1, _⟩ => rfl))
  have hR : ((cfg0.win 2).blk t).view.emb y
      = ix2 (⟨(y 0).val, h0⟩ : Fin 16) (⟨2048 * (t.val / 5) + (y 1).val, by omega⟩ : Fin 16384) :=
    funext fun a => Fin.ext (by
      match a with
      | ⟨0, _⟩ => show win0_2.index t (0 : Fin 2) * 16 + 1 * (y 0).val = (y 0).val; rw [e4]; omega
      | ⟨1, _⟩ => show win0_2.index t (1 : Fin 2) * 2048 + 1 * (y 1).val = 2048 * (t.val / 5) + (y 1).val; rw [e5]; omega)
  rw [hL, hR, hX, block_eq m c t.val t.isLt h4 (⟨t.val / 5, by omega⟩ : Fin 8) rfl]
  rfl

/-- Reading an array through the output window's block at a point is the array at the embedded index. -/
theorem read_blk (t : Fin cfg0.N) (G : Vec Ideal S16x16384 .f32) (y : ((cfg0.win 2).xblock (grid0.coords t)).Idx) :
    ((cfg0.win 2).blk t).view.read (Elt Ideal) G y = G (((cfg0.win 2).blk t).view.emb y) := rfl

/-- What a last point writes back is its block of `outT`. -/
theorem flushed_eq (c : Dev nD) (t : Fin cfg0.N) (hf : (cfg0.win 2).flush t = true) :
    (dats m 0 c).flushed 2 t = ((cfg0.win 2).blk t).view.read (Elt Ideal) (outT m c) := by
  have h4 : t.val % 5 = 4 := (flush0_2 t).mp hf
  show (cfg0.win 2).cut (grid0.coords t) ((dats m 0 c).after 2 t) = _
  rw [after0_2]
  funext y
  exact (flushed_at m c t h4 _ rfl y).trans (read_blk t (outT m c) y).symm

/-- Every entry of the output array lies in the block some last point writes back: column `b` in the block of
    point `5 (b / 2048) + 4`. -/
theorem cover (i : S16x16384.Idx) :
    ∃ t : Fin cfg0.N, (cfg0.win 2).flush t = true ∧ i ∈ ((cfg0.win 2).blk t).view.set := by
  have hN : cfg0.N = 40 := N_0
  have h0 : (i 0).val < 16 := (i 0).isLt
  have h1 : (i 1).val < 16384 := (i 1).isLt
  let t : Fin cfg0.N := ⟨5 * ((i 1).val / 2048) + 4, by omega⟩
  obtain ⟨-, -, -, -, e4, e5⟩ := idx_facts t
  have tv : t.val = 5 * ((i 1).val / 2048) + 4 := rfl
  refine ⟨t, (flush0_2 t).mpr (by rw [tv]; omega), ?_⟩
  show i ∈ ((View.whole main_v7).slice (win0_2.rect t)).set
  rw [View.set_slice_whole, Rect.mem_set_unit]
  intro a
  match a with
  | ⟨0, _⟩ =>
    show win0_2.index t (0 : Fin 2) * 16 ≤ (i 0).val ∧ (i 0).val < win0_2.index t (0 : Fin 2) * 16 + 16
    rw [e4]; omega
  | ⟨1, _⟩ =>
    show win0_2.index t (1 : Fin 2) * 2048 ≤ (i 1).val ∧ (i 1).val < win0_2.index t (1 : Fin 2) * 2048 + 2048
    rw [e5, tv]; omega

/-- The output array after the call. -/
theorem final (c : Dev nD) : (dats m 0 c).arrAt 2 cfg0.N = outT m c :=
  (dats m 0 c).arrAt_eq_of_cover 2 (outT m c) (flushed_eq m c) cover

/-! ## The host operations around the call -/

/-- The call's first operand is the widened table of the item table. -/
theorem tarr_eq (c : Dev nD) : tarr m c = Cert.HostTable.augOf (F := Ideal) (m ((c : Thread nD τ).loc main_arg1)) := by
  show StableHlo.after hostOps0 (fun b => m (c, b)) (Proc.devRef .tc main_v6) = _
  after_results
  rfl

/-- The call's second operand is the transposed selections. -/
theorem sarr_eq (c : Dev nD) :
    sarr m c = transpose S1000x16384 [1, 0] (m ((c : Thread nD τ).loc main_arg0)) Facts₀.transposes_S16384x1000_S1000x16384_1_0 := by
  show StableHlo.after hostOps0 (fun b => m (c, b)) (Proc.devRef .tc main_v0) = _
  after_results

/-- The program's result: the transposed output array. -/
theorem result_eq (c : Dev nD) :
    Pipeline.afterTail₀ cfgs (dats m) 0 (V0 m) [hostOps1] c main_v8
      = transpose S16384x16 [1, 0] (outT m c) Facts₀.transposes_S16x16384_S16384x16_1_0 := by
  unfold Pipeline.afterTail₀
  show StableHlo.after hostOps1 _ (Proc.devRef .tc main_v8) = _
  after_results
  exact congrArg (fun z => transpose S16384x16 [1, 0] z Facts₀.transposes_S16x16384_S16384x16_1_0)
    ((Pipeline.withArrays_arr spec0 launch0.win.arr_inj c _ _ 2).trans (final m c))

end Cert.KernelValue

end
-- ==== Proof.KernelRun.lean ====
/-
  The kernel's run, read: every weakly fair execution ends with the result array at the ratio form of the
  specification applied to the two argument arrays, and the arguments unchanged.

  The call's operands are the widened table (its columns `0 … 15` the item table's, its column `16` ones) and the
  transposed selections, so entry `(s, b)` of the call's output is `ratioAt x a b s`; the closing transpose puts
  it at `(b, s)`.
-/
import proofs.«100463_g13202729468280_cont_week2_1087_32_alg».proof.Proof.KernelValue

noncomputable section

namespace Cert.KernelRun

open Idealize.ShloMosaic Idealize.ShloMosaic.TcCoe Idealize.SL.Sem Idealize.ShloMosaic.ValueIdx
open Cert.KernelIdeal Cert.KernelIdeal.Gen Cert.Accum Cert.KernelValue
open scoped BigOperators

variable (m : (ℓ : Loc nD τ sig) → Buf (Elt Ideal) ℓ) (ρ : Dev nD → PrngReg)

/-- The transposed selections at `(n, b)` are the selections at `(b, n)`. -/
theorem sarr_apply (c : Dev nD) (n : Fin 1000) (b : Fin 16384) :
    sarr m c (ix2 n b) = m ((c : Thread nD τ).loc main_arg0) (ix2 b n) := by
  rw [sarr_eq]
  exact transpose_apply [1, 0] _ Facts₀.transposes_S16384x1000_S1000x16384_1_0 (ix2 n b) (ix2 b n)
    (fun b' => by match b' with | ⟨0, _⟩ => rfl | ⟨1, _⟩ => rfl)

/-- Columns `0 … 15` of the call's table are the item table's columns. -/
theorem tarr_items (c : Dev nD) (n : Fin 1000) (s : Fin 16) :
    tarr m c (ix2 n (⟨s.val, by omega⟩ : Fin 24)) = m ((c : Thread nD τ).loc main_arg1) (ix2 n s) := by
  rw [tarr_eq]
  exact Cert.HostTable.augOf_items _ n s

/-- Column `16` of the call's table is the word of one. -/
theorem tarr_ones (c : Dev nD) (n : Fin 1000) :
    tarr m c (ix2 n (⟨16, by decide⟩ : Fin 24)) = Ideal.ofBits .f32 0x3F800000#32 := by
  rw [tarr_eq]
  exact Cert.HostTable.augOf_ones _ n

/-- The program's result array is the ratio form of the two argument arrays. -/
theorem result_ratio (c : Dev nD) :
    transpose S16384x16 [1, 0] (outT m c) Facts₀.transposes_S16x16384_S16384x16_1_0
      = Cert.Spec.ratio (m ((c : Thread nD τ).loc main_arg0)) (m ((c : Thread nD τ).loc main_arg1)) := by
  funext i
  obtain ⟨b, s, rfl⟩ : ∃ (b : Fin 16384) (s : Fin 16), i = ix2 b s := ⟨i 0, i 1, eq_ix2 i⟩
  rw [transpose_apply [1, 0] (outT m c) Facts₀.transposes_S16x16384_S16384x16_1_0 (ix2 b s) (ix2 s b)
    (fun b' => by match b' with | ⟨0, _⟩ => rfl | ⟨1, _⟩ => rfl)]
  show outAt m c s b = Cert.Spec.ratioAt _ _ b s
  unfold outAt Cert.Spec.ratioAt
  refine congrArg₂ Ideal.div (Finset.sum_congr rfl fun n _ => ?_) (Finset.sum_congr rfl fun n _ => ?_)
  · rw [tarr_items m c n s, sarr_apply m c n b]
  · rw [tarr_ones m c n, sarr_apply m c n b]

/-- THE RUN: the result array at the ratio form, the arguments as launched. -/
theorem run : θ_run defs (onTc (τ := τ) (main (F := Ideal))) ⟨m, fun _ => 0, ρ⟩ fun r => ∀ c : Dev nD,
      r.2.mem ((c.tc : Thread nD τ).loc main_v8)
        = Cert.Spec.ratio (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(((h c).2 main_v8 (Pipeline.mem_restRefs_of main_v8 (by decide) (by decide))).trans (result_eq m c)).trans
        (result_ratio m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelRun

end
-- ==== Proof.RefValue.lean ====
/-
  The reference's result, read at row `b` and sample `s`: the softmax form of the specification.
-/
import proofs.«100463_g13202729468280_cont_week2_1087_32_alg».proof.Proof.Gen.ReferenceIdeal.Read
import proofs.«100463_g13202729468280_cont_week2_1087_32_alg».proof.Proof.Spec

noncomputable section

namespace Cert.RefValue

open Idealize.ShloMosaic Idealize.ShloMosaic.ValueIdx Cert.ReferenceIdeal
open scoped BigOperators

/-- Row `b` with the column `k` put back on the reduced axis is the entry `(b, k)`. -/
private theorem lift_row (h : S16384x1000.Reduces [1] S16384) (b : Fin 16384) (k : Fin (S16384x1000.size 1)) :
    h.lift (ix1 b) k = ix2 b (⟨k.val, k.isLt⟩ : Fin 1000) := by
  funext c; apply Fin.ext
  match c with
  | ⟨0, _⟩ => rfl
  | ⟨1, _⟩ => rfl

/-- The maximum taken over the columns, read at row `b`: the fold of `max` from −∞ over the row's entries. -/
theorem v0_apply (x : FVec Ideal S16384x1000 .f32) (b : Fin 16384) :
    Read.val_main_v0 (F := Ideal) x (ix1 b)
      = Finset.univ.fold max (Ideal.ofBits .f32 0xFF800000#32) (fun n : Fin 1000 => x (ix2 b n)) := by
  have h : S16384x1000.Reduces [1] S16384 := by decide
  unfold Read.val_main_v0
  rw [Host.reduce_eq_fold_single FloatOps.maximumf x _ Cert.ReferenceIdeal.Gen.reducesTo_S16384x1000_S16384_d1 h
    Cert.ReferenceIdeal.Gen.h_S_]
  have hf : (x ∘ h.lift (ix1 b)) = fun n : Fin 1000 => x (ix2 b n) :=
    funext fun k => congrArg x (lift_row h b k)
  exact congrArg
    (fun f => Finset.fold max (Ideal.ofBits .f32 0xFF800000#32) f (Finset.univ : Finset (Fin 1000))) hf

/-- The maximum compared once more with −∞, at row `b`: the specification's row maximum. -/
theorem v2_apply (x : FVec Ideal S16384x1000 .f32) (b : Fin 16384) :
    Read.val_main_v2 (F := Ideal) x (ix1 b) = Cert.Spec.rowMax x b := by
  rw [Read.val_main_v2_apply, Read.val_main_v1_apply, Read.val_main_cst_0_apply, v0_apply]
  rfl

/-- The maximum spread back over the columns: at `(b, n)` it is row `b`'s maximum. -/
theorem v4_apply (x : FVec Ideal S16384x1000 .f32) (b : Fin 16384) (n : Fin 1000) :
    Read.val_main_v4 (F := Ideal) x (ix2 b n) = Cert.Spec.rowMax x b := by
  have e : Read.idx_main_v3 (Read.idx_main_v4 (ix2 b n)) = ix1 b :=
    funext fun a => Fin.ext (by match a with | ⟨0, _⟩ => rfl)
  rw [Read.val_main_v4_apply, Read.val_main_v3_apply, e, v2_apply]

/-- The exponential of the shifted entry at `(b, n)`. -/
theorem v6_apply (x : FVec Ideal S16384x1000 .f32) (b : Fin 16384) (n : Fin 1000) :
    Read.val_main_v6 (F := Ideal) x (ix2 b n) = Ideal.exp (x (ix2 b n) - Cert.Spec.rowMax x b) := by
  rw [Read.val_main_v6_apply, Read.val_main_v5_apply, v4_apply]
  rfl

/-- The row's sum of exponentials spread back over the columns: at `(b, n)` it is zero plus row `b`'s sum. -/
theorem v9_apply (x : FVec Ideal S16384x1000 .f32) (b : Fin 16384) (n : Fin 1000) :
    Read.val_main_v9 (F := Ideal) x (ix2 b n)
      = Ideal.ofBits .f32 0x00000000#32 + ∑ k : Fin 1000, Ideal.exp (x (ix2 b k) - Cert.Spec.rowMax x b) := by
  have e : Read.idx_main_v8 (Read.idx_main_v9 (ix2 b n)) = ix1 b :=
    funext fun a => Fin.ext (by match a with | ⟨0, _⟩ => rfl)
  have ek : ∀ k : Fin 1000, Read.idx_main_v7 (ix1 b) k = ix2 b k := fun k =>
    funext fun a => Fin.ext (by match a with | ⟨0, _⟩ => rfl | ⟨1, _⟩ => rfl)
  rw [Read.val_main_v9_apply, Read.val_main_v8_apply, e, Read.val_main_v7_apply, Read.val_main_cst_1_apply]
  refine congrArg (_ + ·) (Finset.sum_congr rfl fun k _ => ?_)
  rw [ek k, v6_apply]

/-- The reference's last stage at `(b, s)` is the softmax-weighted sum of the item column `s` over row `b`. -/
theorem ref_apply (x : FVec Ideal S16384x1000 .f32) (a : FVec Ideal S1000x16 .f32) (b : Fin 16384) (s : Fin 16) :
    Cert.ReferenceIdeal.Read.val_main_v11 (F := Ideal) x a (ix2 b s) = Cert.Spec.softAt x a b s := by
  rw [Read.val_main_v11_apply]
  unfold Cert.Spec.softAt
  refine Finset.sum_congr rfl fun n _ => ?_
  have el : Read.lidx_main_v11 (ix2 b s) n = ix2 b n :=
    funext fun c => Fin.ext (by match c with | ⟨0, _⟩ => rfl | ⟨1, _⟩ => rfl)
  have er : Read.ridx_main_v11 (ix2 b s) n = ix2 n s :=
    funext fun c => Fin.ext (by match c with | ⟨0, _⟩ => rfl | ⟨1, _⟩ => rfl)
  rw [el, er, Read.val_main_v10_apply, v6_apply, v9_apply]
  rfl

end Cert.RefValue

end
-- ==== Proof.Finite.lean ====
/-
  From the precondition to real entries: where `finite_inputs` is all ones, every entry of both argument arrays
  is a real number (its absolute value is below +∞, so it is neither infinity).
-/
import proofs.«100463_g13202729468280_cont_week2_1087_32_alg».proof.Pre_finite_inputs
import proofs.«100463_g13202729468280_cont_week2_1087_32_alg».proof.Proof.Gen.Pre_finite_inputs
import Idealize.ShloMosaic.PureOps.Ideal
import Idealize.ShloMosaic.Lib.ReduceAll

noncomputable section

namespace Cert.Finite

open Idealize.ShloMosaic

/-- The word `0x7F800000` denotes `+∞`: exponent all ones, significand zero, sign clear. -/
private theorem top_word : Ideal.ofBits .f32 0x7F800000#32 = (⊤ : EReal) := by
  simp [Ideal.ofBits, Ideal.ieee]

/-- An extended real whose absolute value `max x (-x)` is strictly below `+∞` is a real: both infinities have
    absolute value `+∞`, which is not below itself. -/
private theorem real_of_abs_lt_top (x : EReal)
    (h : Ideal.cmp .olt (max x (-x)) (Ideal.ofBits .f32 0x7F800000#32) = 1#1) :
    ∃ r : ℝ, x = (r : EReal) := by
  rw [top_word] at h
  induction x using EReal.rec with
  | bot => simp [Ideal.cmp] at h
  | coe r => exact ⟨r, rfl⟩
  | top => simp [Ideal.cmp] at h

/-- The rank-0 shape has one index: two indices agree because there is no coordinate to tell them apart. -/
private instance : Subsingleton Cert.Pre_finite_inputs.S_.Idx := ⟨fun a b => funext fun d => d.elim0⟩

/-- Where the precondition's word is one, every entry of the selections and of the item table is a real. -/
theorem real_of_pre (x0 : FVec Ideal Cert.Pre_finite_inputs.S16384x1000 .f32)
    (x1 : FVec Ideal Cert.Pre_finite_inputs.S1000x16 .f32)
    (h : Cert.Pre_finite_inputs.fn (F := Ideal) x0 x1 = fun _ => 1#1) :
    (∀ i, ∃ r : ℝ, x0 i = (r : EReal)) ∧ (∀ i, ∃ r : ℝ, x1 i = (r : EReal)) := by
  -- read the precondition's word at the one index of the rank-0 result
  have h0 := congrFun h (fun d => d.elim0)
  dsimp only [Cert.Pre_finite_inputs.fn] at h0
  -- a conjunction of two words is one exactly when both are
  obtain ⟨ha, hb⟩ := IntOp.andi_eq_one.1 h0
  refine ⟨fun i => ?_, fun i => ?_⟩
  · -- an "all" that is one is one at every entry: |x0 i| < +∞
    have e := Host.reduce_andi_all _ _ _ _ _ ha i
    exact real_of_abs_lt_top (x0 i) e
  · -- likewise for the second array: |x1 i| < +∞
    have e := Host.reduce_andi_all _ _ _ _ _ hb i
    exact real_of_abs_lt_top (x1 i) e

end Cert.Finite

end
-- ==== Proof.lean ====
/-
  The certificate of the softmax-weighted item lookup.

  The kernel never forms the softmax. It widens the item table by a column of ones, and for each block of 2048
  batch rows accumulates, over five blocks of 200 items, the product of the widened table's transpose with the
  exps of the selections; the first sixteen rows of the accumulated tile are the numerators
  Σ_n a[n,s]·exp x[b,n], its seventeenth row is the common denominator Σ_n exp x[b,n], and the output is their
  quotient. The reference subtracts the row maximum, exponentiates, normalises and multiplies by the item table.

  * The three frames: the two kernel programs' are their generated frame certificates; the reference's is its
    generated run with the result dropped.
  * `preserves`: the ideal pass rewrote nothing, so the conjunct is `True`.
  * `algebraic`: the kernel's run ends at the ratio form (the accumulation read point by point, the blocks tiling
    the output, the host operations before and after the call), the reference's at the softmax form (its stages
    read at an index); on finite inputs every entry is a real, the row maximum is a real, both denominators are
    positive, and `exp(x − M) = exp(x)/exp(M)` cancels: the two forms agree.
-/
import proofs.«100463_g13202729468280_cont_week2_1087_32_alg».proof.Defs
import proofs.«100463_g13202729468280_cont_week2_1087_32_alg».proof.Proof.Gen.Kernel.Frame
import proofs.«100463_g13202729468280_cont_week2_1087_32_alg».proof.Proof.Gen.KernelIdeal.Frame
import proofs.«100463_g13202729468280_cont_week2_1087_32_alg».proof.Proof.Gen.ReferenceIdeal.Run
import proofs.«100463_g13202729468280_cont_week2_1087_32_alg».proof.Proof.Gen.ReferenceIdeal.Read
import proofs.«100463_g13202729468280_cont_week2_1087_32_alg».proof.Proof.Gen.Pre_finite_inputs
import proofs.«100463_g13202729468280_cont_week2_1087_32_alg».proof.Proof.KernelRun
import proofs.«100463_g13202729468280_cont_week2_1087_32_alg».proof.Proof.RefValue
import proofs.«100463_g13202729468280_cont_week2_1087_32_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the ratio form of the arguments: the kernel's run states it, and the reference's
    softmax form is the ratio form on the real entries the precondition gives. -/
theorem algebraic : Cert.algebraic_KernelIdeal_ReferenceIdeal := by
  intro m ρ m' ρ' hpre hagree
  refine ⟨fun c => Cert.Spec.ratio (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha⟩ := Cert.Finite.real_of_pre _ _ (hpre c)
  rw [Cert.ReferenceIdeal.Read.val_main_v11_eq, (hagree c).1, (hagree c).2]
  funext i
  obtain ⟨b, s, rfl⟩ : ∃ (b : Fin 16384) (s : Fin 16), i = ix2 b s := ⟨i 0, i 1, eq_ix2 i⟩
  rw [Cert.RefValue.ref_apply, Cert.Spec.softAt_eq_ratioAt _ _ hx ha b s]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
